-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S8192x8192 : Shape := ⟨2, ![8192, 8192]⟩
abbrev S1024x256 : Shape := ⟨2, ![1024, 256]⟩
abbrev S1024x1024 : Shape := ⟨2, ![1024, 1024]⟩
abbrev S1024 : Shape := ⟨1, ![1024]⟩
abbrev S1024x1 : Shape := ⟨2, ![1024, 1]⟩
abbrev S256x1024 : Shape := ⟨2, ![256, 1024]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1024, .f32⟩
  | .local _ .vmem, ⟨5, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  transposes_S1024x256_p1_0_S256x1024 : S1024x256.Transposes [1, 0] S256x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.GramSpec.lean ====
/-
  The Gaussian Gram matrix of two families of row vectors, as one function of the two arrays.

  For an array `a` of `N` rows and an array `b` of `M` rows, each row of length `K`, entry `(n, m)` of the
  Gram matrix is
      exp (γ · max (‖aₙ‖² + ‖b_m‖² − 2 · ⟨aₙ, b_m⟩) 0),
  where `‖aₙ‖²` and `‖b_m‖²` are the rows' sums of squares, `⟨aₙ, b_m⟩` is their inner product, and `γ`, `2` and `0`
  are the values of the three words both programs spell (`γ` is −1/256); the words are kept as words, never evaluated.  The bracket is the squared distance
  `‖aₙ − b_m‖²` expanded, clamped at zero.  Everything is arithmetic on the extended reals, so an entry depends only on
  row `n` of `a` and row `m` of `b`: that is what lets a tiled computation and a whole-array one be compared
  entry by entry, with no algebra beyond reading each sum at its row.
-/
import Idealize.ShloMosaic.Lib.ValueIdx
import Idealize.ShloMosaic.PureOps.Ideal.Laws

noncomputable section

open scoped BigOperators

namespace RbfGram

open Idealize.ShloMosaic Idealize.ShloMosaic.ValueIdx

variable {N M K : ℕ}

/-- The sum of squares of row `n`. -/
def sqnorm (x : (⟨2, ![N, K]⟩ : Shape).Idx → EReal) (n : Fin N) : EReal :=
  ∑ k : Fin K, x (ix2 n k) * x (ix2 n k)

/-- The inner product of row `n` of `a` with row `m` of `b`. -/
def inner (a : (⟨2, ![N, K]⟩ : Shape).Idx → EReal) (b : (⟨2, ![M, K]⟩ : Shape).Idx → EReal) (n : Fin N) (m : Fin M) : EReal :=
  ∑ k : Fin K, a (ix2 n k) * b (ix2 m k)

/-- One entry from its three numbers: the two sums of squares and the inner product. -/
def rbf (sa sb cr : EReal) : EReal :=
  Ideal.exp (Ideal.ofBits .f32 0xBB800000#32
    * max (sa + sb - Ideal.ofBits .f32 0x40000000#32 * cr) (Ideal.ofBits .f32 0x00000000#32))

/-- Entry `(n, m)` of the Gram matrix. -/
def entry (a : (⟨2, ![N, K]⟩ : Shape).Idx → EReal) (b : (⟨2, ![M, K]⟩ : Shape).Idx → EReal) (n : Fin N) (m : Fin M) : EReal :=
  rbf (sqnorm a n) (sqnorm b m) (inner a b n m)

/-- The Gram matrix as an array. -/
def gram (a : (⟨2, ![N, K]⟩ : Shape).Idx → EReal) (b : (⟨2, ![M, K]⟩ : Shape).Idx → EReal) :
    (⟨2, ![N, M]⟩ : Shape).Idx → EReal :=
  fun i => entry a b (i 0) (i 1)

theorem gram_ix2 (a : (⟨2, ![N, K]⟩ : Shape).Idx → EReal) (b : (⟨2, ![M, K]⟩ : Shape).Idx → EReal) (n : Fin N) (m : Fin M) :
    gram a b (ix2 n m) = entry a b n m := rfl

/-- An entry depends only on the two rows it names: arrays (of any heights) that agree with `a` on row `n` and with
    `b` on row `m` have the same entry there.  A tile of the Gram matrix computed from a block of rows of `a` and a
    block of rows of `b` is therefore the corresponding tile of the whole matrix. -/
theorem entry_congr {N' M' : ℕ} (a : (⟨2, ![N, K]⟩ : Shape).Idx → EReal) (b : (⟨2, ![M, K]⟩ : Shape).Idx → EReal)
    (a' : (⟨2, ![N', K]⟩ : Shape).Idx → EReal) (b' : (⟨2, ![M', K]⟩ : Shape).Idx → EReal)
    (n : Fin N) (m : Fin M) (n' : Fin N') (m' : Fin M')
    (ha : ∀ k, a' (ix2 n' k) = a (ix2 n k)) (hb : ∀ k, b' (ix2 m' k) = b (ix2 m k)) :
    entry a' b' n' m' = entry a b n m := by
  unfold entry sqnorm inner
  simp only [ha, hb]

end RbfGram

end
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.LibKeepdims.lean ====
/-
  Row sums kept as a column, and a product against a transposed matrix, read at an index at the ideal values.

  A kernel that needs one number per row of a block — here a sum along the lanes — keeps it as a column
  (`keepdims`): the sum is cast from `[R]` to `[R, 1]` and broadcast across the columns, or, for a number per
  COLUMN of the result, cast to `[C, 1]`, transposed to `[1, C]` and broadcast down the rows.  This file reads each
  of those chains at an index `(n, c)` as the plain sum it is, and reads a matrix product whose right operand was
  transposed first as the sum over `k` of row `n` of the left against row `c` of the untransposed right.
  Everything is generic in the extents.
-/
import Idealize.ShloMosaic.Lib.ValueIdx
import Idealize.ShloMosaic.Lib.ValueLayout
import Idealize.ShloMosaic.Lib.Pipeline.Value
import Idealize.ShloMosaic.PureOps.Ideal.Laws
import proofs.«154541_j65481071410173_1_alg».proof.Proof.LibRowOps

noncomputable section

open scoped BigOperators

namespace Keepdims

open Idealize.ShloMosaic Idealize.ShloMosaic.ValueIdx

variable {R C K : ℕ} {α : Type}

/-- A vector cast to a column: `(i, u)` of the column reads entry `i`, whatever the unit coordinate `u`. -/
theorem shapeCast_a_a1_apply (x : (⟨1, ![R]⟩ : Shape).Idx → α) (h : (⟨1, ![R]⟩ : Shape).ShapeCasts ⟨2, ![R, 1]⟩)
    (i : Fin R) (u : Fin 1) : shapeCast ⟨2, ![R, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The reduced index `n` with the lane coordinate `k` put back is `(n, k)`. -/
theorem lift_lane (h : (⟨2, ![R, K]⟩ : Shape).Reduces [1] (⟨1, ![R]⟩ : Shape)) (n : Fin R)
    (k : Fin ((⟨2, ![R, K]⟩ : Shape).size 1)) : h.lift (ix1 n) k = ix2 n (⟨k.val, k.isLt⟩ : Fin K) := by
  funext a; apply Fin.ext
  fin_cases a <;> rfl

/-- A sum along the lanes, at row `n`: the sum over `k` of the entries `(n, k)`. -/
theorem laneSum_apply (v : FVec Ideal ⟨2, ![R, K]⟩ .f32) (acc : BitVec FTy.f32.bits)
    (h : (⟨2, ![R, K]⟩ : Shape).Reduces [1] (⟨1, ![R]⟩ : Shape)) (hφ : FKind.Formats .f32)
    (hacc : acc = FKind.add.neutral .f32 hφ) (n : Fin R) :
    multiReduction (F := Ideal) .add [1] ⟨1, ![R]⟩ v acc h hφ hacc (ix1 n) = ∑ k : Fin K, v (ix2 n k) := by
  refine (Ideal.multiReduction_add_single v acc h hφ hacc (ix1 n)).trans ?_
  show ∑ k : Fin K, v (h.lift (ix1 n) k) = _
  exact Finset.sum_congr rfl fun k _ => congrArg v (lift_lane h n k)

/-- The lane sums kept as a column and broadcast across `C` columns: at `(n, c)` the sum of row `n`. -/
theorem laneSum_col_apply (v : FVec Ideal ⟨2, ![R, K]⟩ .f32) (acc : BitVec FTy.f32.bits)
    (h : (⟨2, ![R, K]⟩ : Shape).Reduces [1] (⟨1, ![R]⟩ : Shape)) (hφ : FKind.Formats .f32)
    (hacc : acc = FKind.add.neutral .f32 hφ)
    (hsc : (⟨1, ![R]⟩ : Shape).ShapeCasts ⟨2, ![R, 1]⟩) (hbc : (⟨2, ![R, 1]⟩ : Shape).Broadcasts ⟨2, ![R, C]⟩)
    (n : Fin R) (c : Fin C) :
    broadcastTo ⟨2, ![R, C]⟩ (shapeCast ⟨2, ![R, 1]⟩ (multiReduction (F := Ideal) .add [1] ⟨1, ![R]⟩ v acc h hφ hacc) hsc) hbc (ix2 n c)
      = ∑ k : Fin K, v (ix2 n k) := by
  rw [RowOps.broadcastTo_a1_ab_apply, shapeCast_a_a1_apply]
  exact laneSum_apply v acc h hφ hacc n

/-- The lane sums of a block of `C` rows kept as a column, transposed to one row and broadcast down `R` rows: at
    `(n, c)` the sum of row `c`. -/
theorem laneSum_row_apply (v : FVec Ideal ⟨2, ![C, K]⟩ .f32) (acc : BitVec FTy.f32.bits)
    (h : (⟨2, ![C, K]⟩ : Shape).Reduces [1] (⟨1, ![C]⟩ : Shape)) (hφ : FKind.Formats .f32)
    (hacc : acc = FKind.add.neutral .f32 hφ)
    (hsc : (⟨1, ![C]⟩ : Shape).ShapeCasts ⟨2, ![C, 1]⟩) (htr : (⟨2, ![C, 1]⟩ : Shape).Transposes [1, 0] ⟨2, ![1, C]⟩)
    (hbc : (⟨2, ![1, C]⟩ : Shape).Broadcasts ⟨2, ![R, C]⟩) (n : Fin R) (c : Fin C) :
    broadcastTo ⟨2, ![R, C]⟩ (transpose ⟨2, ![1, C]⟩ [1, 0]
        (shapeCast ⟨2, ![C, 1]⟩ (multiReduction (F := Ideal) .add [1] ⟨1, ![C]⟩ v acc h hφ hacc) hsc) htr) hbc (ix2 n c)
      = ∑ k : Fin K, v (ix2 c k) := by
  rw [broadcastTo_1b_ab_apply, transpose_ix2_apply, shapeCast_a_a1_apply]
  exact laneSum_apply v acc h hφ hacc c

/-- A plain matrix product into the zero splat whose right operand is a transposed `[C, K]` matrix: at `(n, c)` the
    inner product of row `n` of the left with row `c` of the untransposed right. -/
theorem matmul_transposed_apply (d : DotDims ⟨2, ![R, K]⟩ ⟨2, ![K, C]⟩ ⟨2, ![R, C]⟩) (hd : d = DotDims.plain R K C)
    (prec : Option ContractPrecision) (l : FVec Ideal ⟨2, ![R, K]⟩ .f32) (r : FVec Ideal ⟨2, ![C, K]⟩ .f32)
    (htr : (⟨2, ![C, K]⟩ : Shape).Transposes [1, 0] ⟨2, ![K, C]⟩) (n : Fin R) (c : Fin C) :
    matmul d prec l (transpose ⟨2, ![K, C]⟩ [1, 0] r htr) (constant ⟨2, ![R, C]⟩ .f32 0x00000000#32) (ix2 n c)
      = ∑ k : Fin K, l (ix2 n k) * r (ix2 c k) := by
  rw [RowOps.matmul_plain_apply d hd]
  exact Finset.sum_congr rfl fun k _ => congrArg (l (ix2 n k) * ·) (transpose_ix2_apply r htr k c)

end Keepdims

end
-- ==== Proof.TileGram.lean ====
/-
  One tile of the Gram matrix: what the kernel body computes from a block of rows of each argument.

  The body receives a block `x0` of 1024 rows of the first argument and a block `x1` of 1024 rows of the second, and
  stores a 1024 × 1024 tile.  Its row sums of squares are lane sums kept as columns: the one of `x0` is broadcast
  across the columns, the one of `x1` is transposed to a row and broadcast down the rows, so at `(p, q)` they read
  `‖x0ₚ‖²` and `‖x1_q‖²`.  Its product is of `x0` with the transpose of `x1`, so at `(p, q)` it reads `⟨x0ₚ, x1_q⟩`.
  The remaining operations are pointwise.  So the tile's entry `(p, q)` is entry `(p, q)` of the Gram matrix of the two
  blocks.
-/
import proofs.«154541_j65481071410173_1_alg».proof.Proof.Gen.KernelIdeal.Skeleton
import proofs.«154541_j65481071410173_1_alg».proof.Proof.GramSpec
import proofs.«154541_j65481071410173_1_alg».proof.Proof.LibKeepdims

noncomputable section

open scoped BigOperators

namespace Cert.KernelIdeal.Tile

open Cert.KernelIdeal Cert.KernelIdeal.Gen Idealize.ShloMosaic Idealize.ShloMosaic.ValueIdx

/-- The sum of squares of the first block's rows, kept as a column and broadcast across: at `(p, q)` it is `‖xₚ‖²`. -/
theorem sq_across (x : Vec Ideal S1024x256 .f32) (p q : Fin 1024) :
    broadcastTo S1024x1024 (shapeCast S1024x1 (multiReduction (F := Ideal) .add [1] S1024 (mulf x x) 0x00000000#32
        Facts₀.reduces_S1024x256_S1024 (.inl rfl) rfl) Facts₀.shapeCasts_S1024_S1024x1) Facts₀.broadcasts_S1024x1_S1024x1024 (ix2 p q)
      = RbfGram.sqnorm x p :=
  Keepdims.laneSum_col_apply (mulf x x) 0x00000000#32 Facts₀.reduces_S1024x256_S1024 (.inl rfl) rfl Facts₀.shapeCasts_S1024_S1024x1
    Facts₀.broadcasts_S1024x1_S1024x1024 p q

/-- The sum of squares of the second block's rows, kept as a column, transposed to a row and broadcast down: at
    `(p, q)` it is `‖x_q‖²`. -/
theorem sq_down (x : Vec Ideal S1024x256 .f32) (p q : Fin 1024) :
    broadcastTo S1024x1024 (transpose S1x1024 [1, 0] (shapeCast S1024x1 (multiReduction (F := Ideal) .add [1] S1024 (mulf x x)
        0x00000000#32 Facts₀.reduces_S1024x256_S1024 (.inl rfl) rfl) Facts₀.shapeCasts_S1024_S1024x1) Facts₀.transposes_S1024x1_p1_0_S1x1024)
        Facts₀.broadcasts_S1x1024_S1024x1024 (ix2 p q)
      = RbfGram.sqnorm x q :=
  Keepdims.laneSum_row_apply (mulf x x) 0x00000000#32 Facts₀.reduces_S1024x256_S1024 (.inl rfl) rfl Facts₀.shapeCasts_S1024_S1024x1
    Facts₀.transposes_S1024x1_p1_0_S1x1024 Facts₀.broadcasts_S1x1024_S1024x1024 p q

/-- The product of the first block with the transposed second block, into the zero splat: at `(p, q)` it is the inner
    product of row `p` of the first with row `q` of the second. -/
theorem cross (x0 x1 : Vec Ideal S1024x256 .f32) (p q : Fin 1024) :
    matmul (F := Ideal) (φ₁ := .f32) (φ₂ := .f32) dot_S1024x256_S256x1024_S1024x1024_1_0_0_1_n_n none x0
        (transpose S256x1024 [1, 0] x1 Facts₀.transposes_S1024x256_p1_0_S256x1024) (constant S1024x1024 .f32 0x00000000#32) (ix2 p q)
      = RbfGram.inner x0 x1 p q :=
  Keepdims.matmul_transposed_apply dot_S1024x256_S256x1024_S1024x1024_1_0_0_1_n_n rfl none x0 x1
    Facts₀.transposes_S1024x256_p1_0_S256x1024 p q

/-- The stored tile at `(p, q)` is entry `(p, q)` of the Gram matrix of the two blocks. -/
theorem tile_apply (x0 x1 : Vec Ideal S1024x256 .f32) (p q : Fin 1024) :
    k0_pay1 (F := Ideal) x0 x1 (ix2 p q) = RbfGram.entry x0 x1 p q := by
  unfold RbfGram.entry RbfGram.rbf
  rw [← sq_across x0 p q, ← sq_down x1 p q, ← cross x0 x1 p q]
  rfl

end Cert.KernelIdeal.Tile

end
-- ==== Proof.ArrayGram.lean ====
/-
  From tiles to the whole Gram matrix.

  The grid has 8 × 8 points.  At point `(I, J)` the pipeline hands the body rows `1024·I …` of the first argument
  and rows `1024·J …` of the second (both blocks span all 256 columns), and writes the body's tile back to rows
  `1024·I …`, columns `1024·J …` of the result.  An entry of the Gram matrix depends only on the two rows it names, so the
  tile written at `(I, J)` is that tile of the whole Gram matrix; the 64 tiles cover the 8192 × 8192 result (the
  point covering `(r, s)` is `(r / 1024, s / 1024)`), so after the run the result array is the Gram matrix of the two
  arguments.
-/
import proofs.«154541_j65481071410173_1_alg».proof.Proof.Gen.KernelIdeal.Value
import proofs.«154541_j65481071410173_1_alg».proof.Proof.TileGram

noncomputable section

namespace Cert.KernelIdeal.GramValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The block indices over the grid: the first argument's block moves with the result's row block, the second
    argument's with the result's column block, neither moves along the columns of its own array, and the result's
    block indices stay below 8. -/
theorem block_indices : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 7 :=
  (by decide +kernel : ∀ t : Fin grid0.N, _)

/-- Every tile position is some grid point's. -/
theorem every_tile : ∀ (I J : Fin 8), ∃ t : Fin cfg0.N, win0_2.index t = ![I.val, J.val] :=
  (by decide +kernel : ∀ (I J : Fin 8), ∃ t : Fin grid0.N, win0_2.index t = ![I.val, J.val])

/-- What point `t` writes back is its tile of the Gram matrix of the argument arrays. -/
theorem written_eq (c : Dev nD) (t : Fin cfg0.N) :
    (dats m 0 c).flushed 2 t
      = ((cfg0.win 2).blk t).view.read (Elt Ideal) (RbfGram.gram (V m c main_arg0) (V m c main_arg1)) := by
  show (cfg0.win 2).cut (grid0.coords t) ((dats m 0 c).after 2 t) = _
  rw [after0_2]
  unfold out0_2
  rw [View.canon_unit_zero origin]
  simp only [View.ld_unit_zero (S := S1024x256) origin]
  obtain ⟨ea0, ea1, eb0, eb1, hI, hJ⟩ := block_indices t
  funext j
  obtain ⟨p, q, rfl⟩ : ∃ (p q : Fin 1024), j = ix2 p q := ⟨j 0, j 1, eq_ix2 j⟩
  show k0_pay1 (F := Ideal) (iblk m c 0 t) (iblk m c 1 t) (ix2 p q)
    = RbfGram.entry (V m c main_arg0) (V m c main_arg1) ((((cfg0.win 2).blk t).view.emb (ix2 p q)) 0) ((((cfg0.win 2).blk t).view.emb (ix2 p q)) 1)
  refine (Tile.tile_apply (iblk m c 0 t) (iblk m c 1 t) p q).trans ?_
  refine RbfGram.entry_congr (V m c main_arg0) (V m c main_arg1) (iblk m c 0 t) (iblk m c 1 t) _ _ p q (fun k => ?_) (fun k => ?_)
  · show V m c main_arg0 (((cfg0.win 0).blk t).view.emb (ix2 p k)) = V m c main_arg0 _
    refine congrArg (V m c main_arg0) (funext fun a => Fin.ext ?_)
    match a with
    | ⟨0, _⟩ => show win0_0.index t (0 : Fin 2) * 1024 + 1 * p.val = win0_2.index t (0 : Fin 2) * 1024 + 1 * p.val; omega
    | ⟨1, _⟩ => show win0_0.index t (1 : Fin 2) * 256 + 1 * k.val = k.val; omega
  · show V m c main_arg1 (((cfg0.win 1).blk t).view.emb (ix2 q k)) = V m c main_arg1 _
    refine congrArg (V m c main_arg1) (funext fun a => Fin.ext ?_)
    match a with
    | ⟨0, _⟩ => show win0_1.index t (0 : Fin 2) * 1024 + 1 * q.val = win0_2.index t (1 : Fin 2) * 1024 + 1 * q.val; omega
    | ⟨1, _⟩ => show win0_1.index t (1 : Fin 2) * 256 + 1 * k.val = k.val; omega

/-- An index of the result is in point `t`'s tile iff each coordinate is in the tile's range on its axis. -/
theorem mem_tile (t : Fin cfg0.N) (i : S8192x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- The tiles cover the result: `(r, s)` lies in the tile of the point at `(r / 1024, s / 1024)`. -/
theorem tiles_cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := every_tile ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_tile]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- After the run the result array is the Gram matrix of the two argument arrays. -/
theorem result_eq (c : Dev nD) :
    (dats m 0 c).arrAt 2 cfg0.N
      = RbfGram.gram (m ((c : Thread nD τ).loc main_arg0)) (m ((c : Thread nD τ).loc main_arg1)) :=
  (dats m 0 c).arrAt_eq_of_cover 2 (RbfGram.gram (V m c main_arg0) (V m c main_arg1))
    (fun t _ => written_eq m c t) tiles_cover

/-- Every weakly fair execution of the kernel program terminates with the result array at the Gram matrix of the
    arguments, and the arguments unchanged. -/
theorem run : θ_run defs (onTc (τ := τ) (main (F := Ideal))) ⟨m, fun _ => 0, ρ⟩ fun r => ∀ c : Dev nD,
      r.2.mem ((c : Thread nD τ).loc main_v0)
        = RbfGram.gram (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c), (h c).2⟩) (Cert.KernelIdeal.Value.run_blocks m ρ)

end Cert.KernelIdeal.GramValue

end
-- ==== Proof.RefGram.lean ====
/-
  The reference computes the Gram matrix.

  The reference squares each argument entry by entry and sums along the rows (each host sum is its initial value, the
  zero word, plus the sum over the row), takes the product of the first argument with the second contracted on both
  arrays' second axis (so entry `(n, m)` is the inner product of row `n` with row `m`), broadcasts the row sums of
  the first argument down the columns and those of the second along the rows, and finishes pointwise.  Read at
  `(n, m)`, one operation at a time, that is the Gram matrix's entry; the only arithmetic used is `0 + s = s`.
-/
import proofs.«154541_j65481071410173_1_alg».proof.Proof.Gen.ReferenceIdeal.Read
import proofs.«154541_j65481071410173_1_alg».proof.Proof.GramSpec

noncomputable section

open scoped BigOperators

namespace Cert.ReferenceIdeal.GramValue

open Cert.ReferenceIdeal Cert.ReferenceIdeal.Gen Cert.ReferenceIdeal.Read Idealize.ShloMosaic Idealize.ShloMosaic.ValueIdx

/-- Where the first argument's row sum is read, for entry `(n, m)`: along row `n`. -/
theorem idx_sq_a (n m : Fin 8192) (k : Fin 256) :
    idx_main_v1 (idx_main_v5 (idx_main_v7 (ix2 n m))) k = ix2 n k :=
  funext fun a => Fin.ext (by match a with | ⟨0, _⟩ => rfl | ⟨1, _⟩ => rfl)

/-- Where the second argument's row sum is read, for entry `(n, m)`: along row `m`. -/
theorem idx_sq_b (n m : Fin 8192) (k : Fin 256) :
    idx_main_v3 (idx_main_v6 (idx_main_v8 (ix2 n m))) k = ix2 m k :=
  funext fun a => Fin.ext (by match a with | ⟨0, _⟩ => rfl | ⟨1, _⟩ => rfl)

/-- The product's left factor for entry `(n, m)`: row `n` of the first argument. -/
theorem idx_dot_l (n m : Fin 8192) (k : Fin 256) : lidx_main_v4 (ix2 n m) k = ix2 n k :=
  funext fun a => Fin.ext (by match a with | ⟨0, _⟩ => rfl | ⟨1, _⟩ => rfl)

/-- The product's right factor for entry `(n, m)`: row `m` of the second argument. -/
theorem idx_dot_r (n m : Fin 8192) (k : Fin 256) : ridx_main_v4 (ix2 n m) k = ix2 m k :=
  funext fun a => Fin.ext (by match a with | ⟨0, _⟩ => rfl | ⟨1, _⟩ => rfl)

/-- The reference's result, as a function of its two arguments, is their Gram matrix. -/
theorem result_eq (a b : (⟨S8192x256, .f32⟩ : BufTy).Contents (Elt Ideal)) :
    val_main_v17 (F := Ideal) a b = RbfGram.gram a b := by
  funext i
  obtain ⟨n, m, rfl⟩ : ∃ (n m : Fin 8192), i = ix2 n m := ⟨i 0, i 1, eq_ix2 i⟩
  rw [val_main_v17_apply, val_main_v16_apply, val_main_v15_apply, val_main_cst_3_apply, val_main_v14_apply,
    val_main_v13_apply, val_main_cst_2_apply, val_main_v12_apply, val_main_v11_apply, val_main_v10_apply,
    val_main_cst_1_apply, val_main_v4_apply, val_main_v9_apply, val_main_v7_apply, val_main_v5_apply, val_main_v1_apply,
    val_main_v8_apply, val_main_v6_apply, val_main_v3_apply, val_main_cst_apply, val_main_cst_0_apply]
  simp only [val_main_v0_apply, val_main_v2_apply, idx_sq_a, idx_sq_b, idx_dot_l, idx_dot_r]
  rw [RbfGram.gram_ix2]
  unfold RbfGram.entry RbfGram.rbf RbfGram.sqnorm RbfGram.inner
  show Ideal.exp (Ideal.ofBits .f32 0xBB800000#32
      * max ((Ideal.ofBits .f32 0x00000000#32 + ∑ k : Fin 256, a (ix2 n k) * a (ix2 n k))
          + (Ideal.ofBits .f32 0x00000000#32 + ∑ k : Fin 256, b (ix2 m k) * b (ix2 m k))
          - Ideal.ofBits .f32 0x40000000#32 * ∑ k : Fin 256, a (ix2 n k) * b (ix2 m k))
        (Ideal.ofBits .f32 0x00000000#32)) = _
  rw [show Ideal.ofBits .f32 0x00000000#32 + ∑ k : Fin 256, a (ix2 n k) * a (ix2 n k) = ∑ k : Fin 256, a (ix2 n k) * a (ix2 n k) by
      rw [Ideal.ofBits_zero_f32, zero_add],
    show Ideal.ofBits .f32 0x00000000#32 + ∑ k : Fin 256, b (ix2 m k) * b (ix2 m k) = ∑ k : Fin 256, b (ix2 m k) * b (ix2 m k) by
      rw [Ideal.ofBits_zero_f32, zero_add]]

end Cert.ReferenceIdeal.GramValue

end
-- ==== Proof.lean ====
/-
  The kernel computes the Gaussian (radial basis function) Gram matrix of its two arguments, and so does the reference.

  For `a, b : [8192, 256]` the result's entry `(n, m)` is `exp (γ · max (‖aₙ‖² + ‖b_m‖² − 2 · ⟨aₙ, b_m⟩) 0)`
  with `γ = −1/256` (the specification `RbfGram.gram`).  The kernel tiles the result 8 × 8: each tile is computed
  from a block of 1024 rows of `a` and a block of 1024 rows of `b`, with the rows' sums of squares as lane sums kept as
  columns and the inner products as one product against the transposed block; an entry depends only on the two rows it
  names, so each tile is the tile of the whole matrix and the tiles cover it.  The reference forms the same three
  quantities on whole arrays.  Both sides sum the same products in the same index set, so on the extended reals they
  agree entry by entry with no law beyond `0 + s = s` for the host sums' initial value; the inputs' finiteness is
  never used.  The idealization rewrote nothing, so it preserves the kernel trivially; the two kernel frames are the
  class's, and the reference's frame is its run with the result dropped.
-/
import proofs.«154541_j65481071410173_1_alg».proof.Defs
import proofs.«154541_j65481071410173_1_alg».proof.Proof.Gen.Kernel
import proofs.«154541_j65481071410173_1_alg».proof.Proof.Gen.Kernel.Skeleton
import proofs.«154541_j65481071410173_1_alg».proof.Proof.Gen.Kernel.Launch
import proofs.«154541_j65481071410173_1_alg».proof.Proof.Gen.Kernel.Points
import proofs.«154541_j65481071410173_1_alg».proof.Proof.Gen.Kernel.Frame
import proofs.«154541_j65481071410173_1_alg».proof.Proof.Gen.KernelIdeal
import proofs.«154541_j65481071410173_1_alg».proof.Proof.Gen.KernelIdeal.Skeleton
import proofs.«154541_j65481071410173_1_alg».proof.Proof.Gen.KernelIdeal.Launch
import proofs.«154541_j65481071410173_1_alg».proof.Proof.Gen.KernelIdeal.Points
import proofs.«154541_j65481071410173_1_alg».proof.Proof.Gen.KernelIdeal.Frame
import proofs.«154541_j65481071410173_1_alg».proof.Proof.Gen.ReferenceIdeal
import proofs.«154541_j65481071410173_1_alg».proof.Proof.Gen.Pre_finite_inputs
import proofs.«154541_j65481071410173_1_alg».proof.Proof.Gen.KernelIdeal.Value
import proofs.«154541_j65481071410173_1_alg».proof.Proof.Gen.ReferenceIdeal.Run
import proofs.«154541_j65481071410173_1_alg».proof.Proof.Gen.ReferenceIdeal.Read
import proofs.«154541_j65481071410173_1_alg».proof.Proof.ArrayGram
import proofs.«154541_j65481071410173_1_alg».proof.Proof.RefGram
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel :=
  fun m ρ _ => Cert.Kernel.Gen.frame m ρ

/-- So does the idealized kernel. -/
theorem frame_kernelIdeal : Cert.frame_KernelIdeal :=
  fun m ρ _ => Cert.KernelIdeal.Gen.frame m ρ

/-- The reference runs and leaves its arguments unchanged: its run, the result forgotten. -/
theorem frame_reference : Cert.frame_ReferenceIdeal :=
  fun m ρ _ => (θ_run Cert.ReferenceIdeal.defs _ _).mono (fun _ h c => (h c).2)
    (Cert.ReferenceIdeal.Value.run (F := Ideal) m ρ)

/-- From memories agreeing on the arguments both programs end with the Gram matrix of those arguments. -/
theorem algebraic : Cert.algebraic_KernelIdeal_ReferenceIdeal := by
  intro m ρ m' ρ' _ hagree
  refine ⟨_, Cert.KernelIdeal.GramValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.GramValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
